-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x768 : Shape := ⟨3, ![16, 4096, 768]⟩
abbrev S16x128x768 : Shape := ⟨3, ![16, 128, 768]⟩
abbrev S768x768 : Shape := ⟨2, ![768, 768]⟩
abbrev S_ : Shape := ⟨0, ![]⟩

class Facts : Prop where
  bcast_S_S16x4096x768 : S_.BroadcastsInDim S16x4096x768 (![] : Fin 0 → Fin S16x4096x768.rank)
  reducesTo_S16x4096x768_S_d0_1_2 : S16x4096x768.ReducesTo [0, 1, 2] S_
  h_S_ : 0 < S_.numel
  bcast_S_S16x128x768 : S_.BroadcastsInDim S16x128x768 (![] : Fin 0 → Fin S16x128x768.rank)
  reducesTo_S16x128x768_S_d0_1_2 : S16x128x768.ReducesTo [0, 1, 2] S_
  bcast_S_S768x768 : S_.BroadcastsInDim S768x768 (![] : Fin 0 → Fin S768x768.rank)
  reducesTo_S768x768_S_d0_1 : S768x768.ReducesTo [0, 1] S_

variable [Facts]

def fn {F : FTy → Type} [FloatOps F] (main_arg0 : FVec F S16x4096x768 .f32) (main_arg1 : FVec F S16x128x768 .f32) (main_arg2 : FVec F S768x768 .f32) : IVec S_ 1 :=
  let main_v0 : FVec F S16x4096x768 .f32 := Host.absf main_arg0
  let main_cst : FVec F S_ .f32 := constant S_ .f32 0x7F800000#32
  let main_v1 : FVec F S16x4096x768 .f32 := broadcastInDim S16x4096x768 ![] bcast_S_S16x4096x768 main_cst
  let main_v2 : IVec S16x4096x768 1 := cmpf .olt main_v0 main_v1
  let main_c : IVec S_ 1 := constantI S_ 1 1#1
  let main_v3 : IVec S_ 1 := (fun x v => Host.reduce IntOp.andi x v reducesTo_S16x4096x768_S_d0_1_2 h_S_) main_v2 main_c
  let main_v4 : FVec F S16x128x768 .f32 := Host.absf main_arg1
  let main_cst_0 : FVec F S_ .f32 := constant S_ .f32 0x7F800000#32
  let main_v5 : FVec F S16x128x768 .f32 := broadcastInDim S16x128x768 ![] bcast_S_S16x128x768 main_cst_0
  let main_v6 : IVec S16x128x768 1 := cmpf .olt main_v4 main_v5
  let main_c_1 : IVec S_ 1 := constantI S_ 1 1#1
  let main_v7 : IVec S_ 1 := (fun x v => Host.reduce IntOp.andi x v reducesTo_S16x128x768_S_d0_1_2 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  main_v13
-- ==== Kernel.lean ====
abbrev S16x4096x768 : Shape := ⟨3, ![16, 4096, 768]⟩
abbrev S16x128x768 : Shape := ⟨3, ![16, 128, 768]⟩
abbrev S768x768 : Shape := ⟨2, ![768, 768]⟩
abbrev S1x1024x768 : Shape := ⟨3, ![1, 1024, 768]⟩
abbrev S1x128x768 : Shape := ⟨3, ![1, 128, 768]⟩
abbrev S128x768 : Shape := ⟨2, ![128, 768]⟩
abbrev S1024x768 : Shape := ⟨2, ![1024, 768]⟩
abbrev S1024x128 : Shape := ⟨2, ![1024, 128]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S16x4096x768, .f32⟩
  | .hbm, ⟨1, _⟩ => ⟨S16x128x768, .f32⟩
  | .hbm, ⟨2, _⟩ => ⟨S768x768, .f32⟩
  | .hbm, ⟨3, _⟩ => ⟨S768x768, .bf16⟩
  | .hbm, ⟨4, _⟩ => ⟨S16x4096x768, .f32⟩
  | .local _ .vmem, ⟨0, _⟩ => ⟨S1x1024x768, .f32⟩
  | .local _ .vmem, ⟨1, _⟩ => ⟨S1x1024x768, .f32⟩
  | .local _ .vmem, ⟨2, _⟩ => ⟨S1x128x768, .f32⟩
  | .local _ .vmem, ⟨3, _⟩ => ⟨S1x128x768, .f32⟩
  | .local _ .vmem, ⟨4, _⟩ => ⟨S768x768, .bf16⟩
  | .local _ .vmem, ⟨5, _⟩ => ⟨S1x1024x768, .f32⟩
  | .local _ .vmem, ⟨6, _⟩ => ⟨S1x1024x768, .f32⟩
  | .local _ .vmem, ⟨7, _⟩ => ⟨S128x768, .f32⟩
  | _, _ => ⟨S16x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  reduces_S1024x128_S1024 : S1024x128.Reduces [1] S1024
  shapeCasts_S1024_S1024x1 : S1024.ShapeCasts S1024x1
  broadcasts_S1024x1_S1024x128 : S1024x1.Broadcasts S1024x128
  shapeCasts_S1024x768_S1x1024x768 : S1024x768.ShapeCasts S1x1024x768
  dot_S128x768_S768x768_S128x768_1_0_0_1_n_n_wf : DotDims.WF S128x768 S768x768 S128x768 [1] [0] [0] [1] [] []
  dot_S1024x768_S768x768_S1024x768_1_0_0_1_n_n_wf : DotDims.WF S1024x768 S768x768 S1024x768 [1] [0] [0] [1] [] []
  dot_S1024x768_S128x768_S1024x128_1_1_0_0_n_n_wf : DotDims.WF S1024x768 S128x768 S1024x128 [1] [1] [0] [0] [] []
  dot_S1024x128_S128x768_S1024x768_1_0_0_1_n_n_wf : DotDims.WF S1024x128 S128x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S16x4096x768.size a
  hwx0_0 : ∀ i : grid0.Coords, EltTy.bits .f32 = 32 ∨ (Rect.block (s := S16x4096x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x768.size a ≤ S16x128x768.size a
  hwx0_1 : ∀ i : grid0.Coords, EltTy.bits .f32 = 32 ∨ (Rect.block (s := S16x128x768) S1x128x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x768.size a ≤ S16x4096x768.size a
  hwx0_3 : ∀ i : grid0.Coords, EltTy.bits .f32 = 32 ∨ (Rect.block (s := S16x4096x768) S1x1024x768.size (cc0_transform_3 i) (hinb0_3 i)).WholeWords (EltTy.packing .f32)

variable [Facts₀]

def dot_S128x768_S768x768_S128x768_1_0_0_1_n_n : DotDims S128x768 S768x768 S128x768 where
  lhsContracting := [1]
  rhsContracting := [0]
  lhsNonContracting := [0]
  rhsNonContracting := [1]
  lhsBatch := []
  rhsBatch := []
  wf := dot_S128x768_S768x768_S128x768_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x768_S128x768_S1024x128_1_1_0_0_n_n : DotDims S1024x768 S128x768 S1024x128 where
  lhsContracting := [1]
  rhsContracting := [1]
  lhsNonContracting := [0]
  rhsNonContracting := [0]
  lhsBatch := []
  rhsBatch := []
  wf := dot_S1024x768_S128x768_S1024x128_1_1_0_0_n_n_wf
def dot_S1024x128_S128x768_S1024x768_1_0_0_1_n_n : DotDims S1024x128 S128x768 S1024x768 where
  lhsContracting := [1]
  rhsContracting := [0]
  lhsNonContracting := [0]
  rhsNonContracting := [1]
  lhsBatch := []
  rhsBatch := []
  wf := dot_S1024x128_S128x768_S1024x768_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x768 : Shape := ⟨3, ![16, 4096, 768]⟩
abbrev S16x128x768 : Shape := ⟨3, ![16, 128, 768]⟩
abbrev S768x768 : Shape := ⟨2, ![768, 768]⟩
abbrev S_ : Shape := ⟨0, ![]⟩
abbrev S16x4096x128 : Shape := ⟨3, ![16, 4096, 128]⟩
abbrev S16x4096 : Shape := ⟨2, ![16, 4096]⟩
abbrev S16x4096x1 : Shape := ⟨3, ![16, 4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S16x4096x768, .f32⟩
  | .hbm, ⟨1, _⟩ => ⟨S16x128x768, .f32⟩
  | .hbm, ⟨2, _⟩ => ⟨S768x768, .f32⟩
  | .hbm, ⟨3, _⟩ => ⟨S16x4096x768, .f32⟩
  | .hbm, ⟨4, _⟩ => ⟨S_, .f32⟩
  | .hbm, ⟨5, _⟩ => ⟨S16x4096x768, .f32⟩
  | .hbm, ⟨6, _⟩ => ⟨S16x4096x768, .f32⟩
  | .hbm, ⟨7, _⟩ => ⟨S16x128x768, .f32⟩
  | .hbm, ⟨8, _⟩ => ⟨S_, .f32⟩
  | .hbm, ⟨9, _⟩ => ⟨S16x128x768, .f32⟩
  | .hbm, ⟨10, _⟩ => ⟨S16x128x768, .f32⟩
  | .hbm, ⟨11, _⟩ => ⟨S16x4096x128, .f32⟩
  | .hbm, ⟨12, _⟩ => ⟨S_, .f32⟩
  | .hbm, ⟨13, _⟩ => ⟨S16x4096, .f32⟩
  | .hbm, ⟨14, _⟩ => ⟨S_, .f32⟩
  | .hbm, ⟨15, _⟩ => ⟨S16x4096, .f32⟩
  | .hbm, ⟨16, _⟩ => ⟨S16x4096, .f32⟩
  | .hbm, ⟨17, _⟩ => ⟨S16x4096x1, .f32⟩
  | .hbm, ⟨18, _⟩ => ⟨S16x4096x128, .f32⟩
  | .hbm, ⟨19, _⟩ => ⟨S16x4096x128, .f32⟩
  | .hbm, ⟨20, _⟩ => ⟨S16x4096x128, .f32⟩
  | .hbm, ⟨21, _⟩ => ⟨S_, .f32⟩
  | .hbm, ⟨22, _⟩ => ⟨S16x4096, .f32⟩
  | .hbm, ⟨23, _⟩ => ⟨S16x4096x1, .f32⟩
  | .hbm, ⟨24, _⟩ => ⟨S16x4096x128, .f32⟩
  | .hbm, ⟨25, _⟩ => ⟨S16x4096x128, .f32⟩
  | .hbm, ⟨26, _⟩ => ⟨S16x4096x768, .f32⟩
  | _, _ => ⟨S16x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_call1_cst : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S16x4096x768 : S_.BroadcastsInDim S16x4096x768 (![] : Fin 0 → Fin S16x4096x768.rank)
  bcast_S_S16x128x768 : S_.BroadcastsInDim S16x128x768 (![] : Fin 0 → Fin S16x128x768.rank)
  reducesTo_S16x4096x128_S16x4096_d2 : S16x4096x128.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x128_0_1_2 : S16x4096x1.BroadcastsInDim S16x4096x128 (![0, 1, 2] : Fin 3 → Fin S16x4096x128.rank)
  dot_S16x4096x768_S768x768_S16x4096x768_2_0_01_1_n_n_wf : DotDims.WF S16x4096x768 S768x768 S16x4096x768 [2] [0] [0, 1] [1] [] []
  dot_S16x128x768_S768x768_S16x128x768_2_0_01_1_n_n_wf : DotDims.WF S16x128x768 S768x768 S16x128x768 [2] [0] [0, 1] [1] [] []
  dot_S16x4096x768_S16x128x768_S16x4096x128_2_2_1_1_0_0_wf : DotDims.WF S16x4096x768 S16x128x768 S16x4096x128 [2] [2] [1] [1] [0] [0]
  dot_S16x4096x128_S16x128x768_S16x4096x768_2_1_1_2_0_0_wf : DotDims.WF S16x4096x128 S16x128x768 S16x4096x768 [2] [1] [1] [2] [0] [0]

variable [Facts₀]

def dot_S16x4096x768_S768x768_S16x4096x768_2_0_01_1_n_n : DotDims S16x4096x768 S768x768 S16x4096x768 where
  lhsContracting := [2]
  rhsContracting := [0]
  lhsNonContracting := [0, 1]
  rhsNonContracting := [1]
  lhsBatch := []
  rhsBatch := []
  wf := dot_S16x4096x768_S768x768_S16x4096x768_2_0_01_1_n_n_wf
def dot_S16x128x768_S768x768_S16x128x768_2_0_01_1_n_n : DotDims S16x128x768 S768x768 S16x128x768 where
  lhsContracting := [2]
  rhsContracting := [0]
  lhsNonContracting := [0, 1]
  rhsNonContracting := [1]
  lhsBatch := []
  rhsBatch := []
  wf := dot_S16x128x768_S768x768_S16x128x768_2_0_01_1_n_n_wf
def dot_S16x4096x768_S16x128x768_S16x4096x128_2_2_1_1_0_0 : DotDims S16x4096x768 S16x128x768 S16x4096x128 where
  lhsContracting := [2]
  rhsContracting := [2]
  lhsNonContracting := [1]
  rhsNonContracting := [1]
  lhsBatch := [0]
  rhsBatch := [0]
  wf := dot_S16x4096x768_S16x128x768_S16x4096x128_2_2_1_1_0_0_wf
def dot_S16x4096x128_S16x128x768_S16x4096x768_2_1_1_2_0_0 : DotDims S16x4096x128 S16x128x768 S16x4096x768 where
  lhsContracting := [2]
  rhsContracting := [1]
  lhsNonContracting := [1]
  rhsNonContracting := [2]
  lhsBatch := [0]
  rhsBatch := [0]
  wf := dot_S16x4096x128_S16x128x768_S16x4096x768_2_1_1_2_0_0_wf

class Facts : Prop extends Facts₀ where

variable [Facts]
-- ==== Proof.Blocks.lean ====
/-
  Where the windows' blocks lie. The grid has 64 points, point `t` being tile `t % 4` of batch `t / 4`.
  The document window's block at `t` is rows `1024·(t % 4) … 1024·(t % 4) + 1023` of batch `t / 4`, the
  query window's block is the whole of batch `t / 4`, the weight window's block is the whole matrix, and the
  result window's block sits where the document block does. So inside a batch the query block and the
  weight block are the same from one point to the next — which is what makes the cached query projection
  valid at tiles 1, 2 and 3.
-/
import proofs.«415042_j68616397521532_3_alg».proof.Proof.Gen.KernelIdeal.Frame
import Idealize.ShloMosaic.Lib.ValueIdx
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem ValueIdx

variable {F : FTy → Type} [FloatOps F]
variable (m : (ℓ : Loc nD τ sig) → Buf (Elt F) ℓ)

/-- The four index maps at point `t`: batch `t / 4` and tile `t % 4` for the documents and the result, batch
    `t / 4` for the queries, the origin for the weights — decided over the 64 points. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val / 4 ∧ win0_3.index t (1 : Fin 3) = t.val % 4 ∧ win0_3.index t (2 : Fin 3) = 0 :=
  (by decide +kernel : ∀ t : Fin grid0.N, _)

theorem lt64 (t : Fin cfg0.N) : t.val < 64 := lt_of_lt_of_eq t.isLt (show cfg0.N = 64 from N_0)

/-- Row `r`, column `e` of the document block at `t` is row `1024·(t % 4) + r` of batch `t / 4`. -/
theorem doc_read (c : Dev nD) (t : Fin cfg0.N) (r : Fin 1024) (e : Fin 768) :
    (iblk m c 0 t : Vec F S1x1024x768 .f32) (ix3 (0 : Fin 1) r e)
      = V m c main_arg0 (ix3 (⟨t.val / 4, by have := lt64 t; omega⟩ : Fin 16)
          (⟨1024 * (t.val % 4) + r.val, by have := r.isLt; omega⟩ : Fin 4096) e) := by
  obtain ⟨e0, e1, e2, -⟩ := idx_facts t
  show V m c main_arg0 (((cfg0.win 0).blk t).view.emb (ix3 (0 : Fin 1) r e)) = _
  refine congrArg (V m c main_arg0) (funext fun a => Fin.ext ?_)
  match a with
  | ⟨0, _⟩ => show win0_0.index t (0 : Fin 3) * 1 + 1 * 0 = t.val / 4; omega
  | ⟨1, _⟩ => show win0_0.index t (1 : Fin 3) * 1024 + 1 * r.val = 1024 * (t.val % 4) + r.val; omega
  | ⟨2, _⟩ => show win0_0.index t (2 : Fin 3) * 768 + 1 * e.val = e.val; omega

/-- Row `q`, column `e` of the query block at `t` is row `q` of batch `t / 4`. -/
theorem query_read (c : Dev nD) (t : Fin cfg0.N) (q : Fin 128) (e : Fin 768) :
    (iblk m c 1 t : Vec F S1x128x768 .f32) (ix3 (0 : Fin 1) q e)
      = V m c main_arg1 (ix3 (⟨t.val / 4, by have := lt64 t; omega⟩ : Fin 16) q e) := by
  obtain ⟨-, -, -, e0, e1, e2, -⟩ := idx_facts t
  show V m c main_arg1 (((cfg0.win 1).blk t).view.emb (ix3 (0 : Fin 1) q e)) = _
  refine congrArg (V m c main_arg1) (funext fun a => Fin.ext ?_)
  match a with
  | ⟨0, _⟩ => show win0_1.index t (0 : Fin 3) * 1 + 1 * 0 = t.val / 4; omega
  | ⟨1, _⟩ => show win0_1.index t (1 : Fin 3) * 128 + 1 * q.val = q.val; omega
  | ⟨2, _⟩ => show win0_1.index t (2 : Fin 3) * 768 + 1 * e.val = e.val; omega

/-- The weight block at any point is the whole weight matrix as the region finds it. -/
theorem weight_read (c : Dev nD) (t : Fin cfg0.N) (e h : Fin 768) :
    (iblk m c 2 t : Vec F S768x768 .bf16) (ix2 e h) = V m c main_v0 (ix2 e h) := by
  obtain ⟨-, -, -, -, -, -, e0, e1, -⟩ := idx_facts t
  show V m c main_v0 (((cfg0.win 2).blk t).view.emb (ix2 e h)) = _
  refine congrArg (V m c main_v0) (funext fun a => Fin.ext ?_)
  match a with
  | ⟨0, _⟩ => show win0_2.index t (0 : Fin 2) * 768 + 1 * e.val = e.val; omega
  | ⟨1, _⟩ => show win0_2.index t (1 : Fin 2) * 768 + 1 * h.val = h.val; omega

/-- Two arrays of shape [1, n₁, n₂] that agree at every (0, q, e) are equal. -/
theorem ext_unit3 {α : Type} {n1 n2 : Nat} (x y : (⟨3, ![1, n1, n2]⟩ : Shape).Idx → α)
    (h : ∀ (q : Fin n1) (e : Fin n2), x (ix3 (0 : Fin 1) q e) = y (ix3 (0 : Fin 1) q e)) : x = y := by
  funext j
  have hj : j = ix3 (0 : Fin 1) (j 1) (j 2) := by
    funext a
    match a with
    | ⟨0, _⟩ => exact Fin.ext (Nat.lt_one_iff.mp (j 0).isLt)
    | ⟨1, _⟩ => rfl
    | ⟨2, _⟩ => rfl
  rw [hj]; exact h _ _

/-- Two matrices that agree at every (a, b) are equal. -/
theorem ext_mat {α : Type} {n0 n1 : Nat} (x y : (⟨2, ![n0, n1]⟩ : Shape).Idx → α)
    (h : ∀ (a : Fin n0) (b : Fin n1), x (ix2 a b) = y (ix2 a b)) : x = y := by
  funext j
  rw [eq_ix2 j]; exact h _ _

/-- Inside a batch the query block does not move: at a point that is not a batch's first, it is the block of
    the point before. -/
theorem query_same (c : Dev nD) (t : Fin cfg0.N) (h0 : ¬ t.val % 4 = 0) :
    (iblk m c 1 ⟨t.val - 1, Nat.lt_of_le_of_lt (Nat.sub_le _ _) t.isLt⟩ : Vec F S1x128x768 .f32) = iblk m c 1 t := by
  refine ext_unit3 _ _ fun q e => ?_
  rw [query_read, query_read]
  refine congrArg (V m c main_arg1) (funext fun a => Fin.ext ?_)
  match a with
  | ⟨0, _⟩ => show (t.val - 1) / 4 = t.val / 4; omega
  | ⟨1, _⟩ => rfl
  | ⟨2, _⟩ => rfl

/-- The weight block does not move at all. -/
theorem weight_same (c : Dev nD) (t : Fin cfg0.N) (h0 : ¬ t.val % 4 = 0) :
    (iblk m c 2 ⟨t.val - 1, Nat.lt_of_le_of_lt (Nat.sub_le _ _) t.isLt⟩ : Vec F S768x768 .bf16) = iblk m c 2 t := by
  refine ext_mat _ _ fun e h => ?_
  rw [weight_read, weight_read]

end Cert.KernelIdeal.Blocks

end
-- ==== Proof.Spec.lean ====
/-
  Cross-attention of projected documents against projected queries, as ONE function of the
  arguments over the extended reals.

  With `W : 768 × 768`, a row `x : 768` is projected and rectified:
  `proj W x h = max (∑ e, x e · W e h) 0`. For a document row `xd` and the 128 query rows `Q q` of
  the same batch the logits are `score q = ∑ h, proj W xd h · proj W (Q q) h`; they are normalised by
  the softmax over `q` — the row maximum is subtracted, the exponentials are divided by their sum —
  and the result at column `h` is `∑ q, softmax q · proj W (Q q) h`.

  Both programs compute exactly this, operation for operation: the row maximum is the fold of `max`
  from the word of −∞, the two sums have no initial term, the rectifier's zero is the word both
  programs print. No law of the extended reals beyond the reordering of finite sums relates them, so
  nothing here asks the inputs to be finite.
-/
import Idealize.ShloMosaic.PureOps.Ideal
import Idealize.ShloMosaic.PureOps.Ideal.Laws
import Idealize.ShloMosaic.Lib.ValueIdx

noncomputable section

namespace Cert.CrossAttn

open Idealize.ShloMosaic

/-- The value of the f32 word of −∞: where both row maxima start. -/
abbrev negInf : EReal := Ideal.ofBits .f32 0xFF800000#32

/-- The value of the f32 zero word: the rectifier's floor. -/
abbrev zeroF : EReal := Ideal.ofBits .f32 0x00000000#32

variable (W : Fin 768 → Fin 768 → EReal)

/-- A row projected by `W` and rectified, at column `h`. -/
def proj (x : Fin 768 → EReal) (h : Fin 768) : EReal :=
  max (∑ e : Fin 768, x e * W e h) zeroF

/-- The logit of a document row against a query row: the inner product of their projections. -/
def score (xd xq : Fin 768 → EReal) : EReal :=
  ∑ h : Fin 768, proj W xd h * proj W xq h

/-- The largest logit of a document row over the 128 query rows, folded from −∞. -/
def rowMax (xd : Fin 768 → EReal) (Q : Fin 128 → Fin 768 → EReal) : EReal :=
  (Finset.univ : Finset (Fin 128)).fold max negInf (fun q => score W xd (Q q))

/-- The shifted exponential of the logit against query row `q`. -/
def expo (xd : Fin 768 → EReal) (Q : Fin 128 → Fin 768 → EReal) (q : Fin 128) : EReal :=
  Ideal.exp (score W xd (Q q) - rowMax W xd Q)

/-- The softmax's denominator: the sum of the shifted exponentials over the query rows. -/
def denom (xd : Fin 768 → EReal) (Q : Fin 128 → Fin 768 → EReal) : EReal :=
  ∑ q : Fin 128, expo W xd Q q

/-- One row of the result: the attention-weighted sum of the projected query rows, at column `h`. -/
def rowOut (xd : Fin 768 → EReal) (Q : Fin 128 → Fin 768 → EReal) (h : Fin 768) : EReal :=
  ∑ q : Fin 128, Ideal.div (expo W xd Q q) (denom W xd Q) * proj W (Q q) h

/-- The fold of `max` from −∞ already dominates −∞: taking `max` with −∞ once more changes nothing. -/
theorem max_negInf_left (y : EReal) : max negInf y = y := by
  show max (Ideal.ofBits .f32 0xFF800000#32) y = y
  simp [Ideal.ofBits, Ideal.ieee]

end Cert.CrossAttn

end
-- ==== Proof.Whole.lean ====
/-
  The result array as one function of the three argument arrays: entry (b, d, h) of the result is row-result
  `rowOut` of document row (b, d) against the 128 query rows of batch b, at column h.
-/
import proofs.«415042_j68616397521532_3_alg».proof.Proof.Spec

noncomputable section

namespace Cert.CrossAttn

open Idealize.ShloMosaic ValueIdx

/-- The whole result [16, 4096, 768] from documents [16, 4096, 768], queries [16, 128, 768] and weights [768, 768]. -/
def whole (D : (⟨3, ![16, 4096, 768]⟩ : Shape).Idx → EReal) (Qa : (⟨3, ![16, 128, 768]⟩ : Shape).Idx → EReal)
    (W : (⟨2, ![768, 768]⟩ : Shape).Idx → EReal) : (⟨3, ![16, 4096, 768]⟩ : Shape).Idx → EReal :=
  fun i => rowOut (fun e h' => W (ix2 e h')) (fun e => D (ix3 (i 0) (i 1) e)) (fun q e => Qa (ix3 (i 0) q e)) (i 2)

/-- At explicit coordinates. -/
theorem whole_apply (D : (⟨3, ![16, 4096, 768]⟩ : Shape).Idx → EReal) (Qa : (⟨3, ![16, 128, 768]⟩ : Shape).Idx → EReal)
    (W : (⟨2, ![768, 768]⟩ : Shape).Idx → EReal) (b : Fin 16) (d : Fin 4096) (h : Fin 768) :
    whole D Qa W (ix3 b d h)
      = rowOut (fun e h' => W (ix2 e h')) (fun e => D (ix3 b d e)) (fun q e => Qa (ix3 b q e)) h := rfl

end Cert.CrossAttn

end
-- ==== Proof.Payload.lean ====
/-
  The kernel body's output block read at an index.

  The body computes two pure values. The first is the projection of the 128 query rows of a batch: each row times the
  `768 × 768` weight, rectified. The second is the output block for 1024 document rows: the same projection of the
  document rows; their logits against the projected query rows (an inner product over the 768 columns); the softmax of
  each row of logits over the 128 query rows (the row maximum is subtracted, the exponentials are divided by their sum);
  and the product of those weights with the projected query rows.

  Here every operation is read at an index, innermost first: the four products as sums over their one contracted axis,
  the two row reductions (kept as a column and broadcast back) as a fold of `max` and a sum over the 128 query rows,
  the pointwise operations entry by entry. Composed, the second value over the first, at row `r` and column `h`, is
  the specification's `rowOut` of document row `r` and the batch's query rows at column `h`, term for term: no law
  of the extended reals is used.
-/
import proofs.«415042_j68616397521532_3_alg».proof.Proof.Gen.KernelIdeal.Skeleton
import proofs.«415042_j68616397521532_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem ValueIdx

namespace Cert.KernelIdeal.Body

open Cert.KernelIdeal Cert.KernelIdeal.Gen

/-! ## The query rows' product with the weight

The product of a `[128, 768]` operand with the `[768, 768]` weight contracts the operand's axis 1 with the weight's
axis 0: at `(q, h)` it reads the operand's row `q` and the weight's column `h`. -/

theorem lhs_dotQ_0 (i : S128x768.Idx) (k : dot_S128x768_S768x768_S128x768_1_0_0_1_n_n.contr.Idx) :
    (dot_S128x768_S768x768_S128x768_1_0_0_1_n_n.lhsIdx i k 0).val = (i 0).val := by
  unfold DotDims.lhsIdx
  rw [dif_neg (show ¬(0 : Fin S128x768.rank) ∈ dot_S128x768_S768x768_S128x768_1_0_0_1_n_n.lhsBatch by decide), dif_pos (show (0 : Fin S128x768.rank) ∈ dot_S128x768_S768x768_S128x768_1_0_0_1_n_n.lhsNonContracting by decide)]
  rfl
theorem lhs_dotQ_1 (i : S128x768.Idx) (k : dot_S128x768_S768x768_S128x768_1_0_0_1_n_n.contr.Idx) :
    (dot_S128x768_S768x768_S128x768_1_0_0_1_n_n.lhsIdx i k 1).val = (k ⟨0, by decide⟩).val :=
  dot_S128x768_S768x768_S128x768_1_0_0_1_n_n.lhsIdx_val_of_single rfl i k
theorem rhs_dotQ_0 (i : S128x768.Idx) (k : dot_S128x768_S768x768_S128x768_1_0_0_1_n_n.contr.Idx) :
    (dot_S128x768_S768x768_S128x768_1_0_0_1_n_n.rhsIdx i k 0).val = (k ⟨0, by decide⟩).val :=
  dot_S128x768_S768x768_S128x768_1_0_0_1_n_n.rhsIdx_val_of_single rfl i k
theorem rhs_dotQ_1 (i : S128x768.Idx) (k : dot_S128x768_S768x768_S128x768_1_0_0_1_n_n.contr.Idx) :
    (dot_S128x768_S768x768_S128x768_1_0_0_1_n_n.rhsIdx i k 1).val = (i 1).val := by
  unfold DotDims.rhsIdx
  rw [dif_neg (show ¬(1 : Fin S768x768.rank) ∈ dot_S128x768_S768x768_S128x768_1_0_0_1_n_n.rhsBatch by decide), dif_pos (show (1 : Fin S768x768.rank) ∈ dot_S128x768_S768x768_S128x768_1_0_0_1_n_n.rhsNonContracting by decide)]
  rfl

/-- The product into the zero accumulator at `(q, h)`: the sum over `e` of the operand at `(q, e)` times the weight
at `(e, h)`. -/
theorem matmulQ_apply (a : FVec Ideal S128x768 .bf16) (b : FVec Ideal S768x768 .bf16) (q : Fin 128) (h : Fin 768) :
    matmul dot_S128x768_S768x768_S128x768_1_0_0_1_n_n none a b (constant (F := Ideal) S128x768 .f32 0x00000000#32) (ix2 q h)
      = ∑ e : Fin 768, a (ix2 q e) * b (ix2 e h) := by
  simp only [matmul]
  rw [Ideal.matmul_constant_zero_apply, ← Equiv.sum_comp (ValueIdx.contrEquiv1 dot_S128x768_S768x768_S128x768_1_0_0_1_n_n 768 rfl rfl).symm]
  refine Finset.sum_congr rfl fun e _ => ?_
  have he := ValueIdx.contrEquiv1_symm_val dot_S128x768_S768x768_S128x768_1_0_0_1_n_n 768 rfl rfl e
  have el : dot_S128x768_S768x768_S128x768_1_0_0_1_n_n.lhsIdx (ix2 q h) ((ValueIdx.contrEquiv1 dot_S128x768_S768x768_S128x768_1_0_0_1_n_n 768 rfl rfl).symm e) = ix2 q e := funext fun c => Fin.ext (by
    match c with
    | ⟨0, _⟩ => exact lhs_dotQ_0 _ _
    | ⟨1, _⟩ => exact (lhs_dotQ_1 _ _).trans he)
  have er : dot_S128x768_S768x768_S128x768_1_0_0_1_n_n.rhsIdx (ix2 q h) ((ValueIdx.contrEquiv1 dot_S128x768_S768x768_S128x768_1_0_0_1_n_n 768 rfl rfl).symm e) = ix2 e h := funext fun c => Fin.ext (by
    match c with
    | ⟨0, _⟩ => exact (rhs_dotQ_0 _ _).trans he
    | ⟨1, _⟩ => exact rhs_dotQ_1 _ _)
  rw [el, er]

/-! ## The document rows' product with the weight

The same contraction for a `[1024, 768]` operand: at `(r, h)` the operand's row `r` against the weight's column `h`. -/

theorem lhs_dotD_0 (i : S1024x768.Idx) (k : dot_S1024x768_S768x768_S1024x768_1_0_0_1_n_n.contr.Idx) :
    (dot_S1024x768_S768x768_S1024x768_1_0_0_1_n_n.lhsIdx i k 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
theorem lhs_dotD_1 (i : S1024x768.Idx) (k : dot_S1024x768_S768x768_S1024x768_1_0_0_1_n_n.contr.Idx) :
    (dot_S1024x768_S768x768_S1024x768_1_0_0_1_n_n.lhsIdx i k 1).val = (k ⟨0, by decide⟩).val :=
  dot_S1024x768_S768x768_S1024x768_1_0_0_1_n_n.lhsIdx_val_of_single rfl i k
theorem rhs_dotD_0 (i : S1024x768.Idx) (k : dot_S1024x768_S768x768_S1024x768_1_0_0_1_n_n.contr.Idx) :
    (dot_S1024x768_S768x768_S1024x768_1_0_0_1_n_n.rhsIdx i k 0).val = (k ⟨0, by decide⟩).val :=
  dot_S1024x768_S768x768_S1024x768_1_0_0_1_n_n.rhsIdx_val_of_single rfl i k
theorem rhs_dotD_1 (i : S1024x768.Idx) (k : dot_S1024x768_S768x768_S1024x768_1_0_0_1_n_n.contr.Idx) :
    (dot_S1024x768_S768x768_S1024x768_1_0_0_1_n_n.rhsIdx i k 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- The product into the zero accumulator at `(r, h)`: the sum over `e` of the operand at `(r, e)` times the weight
at `(e, h)`. -/
theorem matmulD_apply (a : FVec Ideal S1024x768 .bf16) (b : FVec Ideal S768x768 .bf16) (r : Fin 1024) (h : Fin 768) :
    matmul dot_S1024x768_S768x768_S1024x768_1_0_0_1_n_n none a b (constant (F := Ideal) S1024x768 .f32 0x00000000#32) (ix2 r h)
      = ∑ e : Fin 768, a (ix2 r e) * b (ix2 e h) := by
  simp only [matmul]
  rw [Ideal.matmul_constant_zero_apply, ← Equiv.sum_comp (ValueIdx.contrEquiv1 dot_S1024x768_S768x768_S1024x768_1_0_0_1_n_n 768 rfl rfl).symm]
  refine Finset.sum_congr rfl fun e _ => ?_
  have he := ValueIdx.contrEquiv1_symm_val dot_S1024x768_S768x768_S1024x768_1_0_0_1_n_n 768 rfl rfl e
  have el : dot_S1024x768_S768x768_S1024x768_1_0_0_1_n_n.lhsIdx (ix2 r h) ((ValueIdx.contrEquiv1 dot_S1024x768_S768x768_S1024x768_1_0_0_1_n_n 768 rfl rfl).symm e) = ix2 r e := funext fun c => Fin.ext (by
    match c with
    | ⟨0, _⟩ => exact lhs_dotD_0 _ _
    | ⟨1, _⟩ => exact (lhs_dotD_1 _ _).trans he)
  have er : dot_S1024x768_S768x768_S1024x768_1_0_0_1_n_n.rhsIdx (ix2 r h) ((ValueIdx.contrEquiv1 dot_S1024x768_S768x768_S1024x768_1_0_0_1_n_n 768 rfl rfl).symm e) = ix2 e h := funext fun c => Fin.ext (by
    match c with
    | ⟨0, _⟩ => exact (rhs_dotD_0 _ _).trans he
    | ⟨1, _⟩ => exact rhs_dotD_1 _ _)
  rw [el, er]

/-! ## The logits' product

Both operands are contracted on their LAST axis: at `(r, q)` the product reads row `r` of the left operand and row
`q` of the right one, column by column. -/

theorem lhs_dotS_0 (i : S1024x128.Idx) (k : dot_S1024x768_S128x768_S1024x128_1_1_0_0_n_n.contr.Idx) :
    (dot_S1024x768_S128x768_S1024x128_1_1_0_0_n_n.lhsIdx i k 0).val = (i 0).val := by
  unfold DotDims.lhsIdx
  rw [dif_neg (show ¬(0 : Fin S1024x768.rank) ∈ dot_S1024x768_S128x768_S1024x128_1_1_0_0_n_n.lhsBatch by decide), dif_pos (show (0 : Fin S1024x768.rank) ∈ dot_S1024x768_S128x768_S1024x128_1_1_0_0_n_n.lhsNonContracting by decide)]
  rfl
theorem lhs_dotS_1 (i : S1024x128.Idx) (k : dot_S1024x768_S128x768_S1024x128_1_1_0_0_n_n.contr.Idx) :
    (dot_S1024x768_S128x768_S1024x128_1_1_0_0_n_n.lhsIdx i k 1).val = (k ⟨0, by decide⟩).val :=
  dot_S1024x768_S128x768_S1024x128_1_1_0_0_n_n.lhsIdx_val_of_single rfl i k
theorem rhs_dotS_0 (i : S1024x128.Idx) (k : dot_S1024x768_S128x768_S1024x128_1_1_0_0_n_n.contr.Idx) :
    (dot_S1024x768_S128x768_S1024x128_1_1_0_0_n_n.rhsIdx i k 0).val = (i 1).val := by
  unfold DotDims.rhsIdx
  rw [dif_neg (show ¬(0 : Fin S128x768.rank) ∈ dot_S1024x768_S128x768_S1024x128_1_1_0_0_n_n.rhsBatch by decide), dif_pos (show (0 : Fin S128x768.rank) ∈ dot_S1024x768_S128x768_S1024x128_1_1_0_0_n_n.rhsNonContracting by decide)]
  rfl
theorem rhs_dotS_1 (i : S1024x128.Idx) (k : dot_S1024x768_S128x768_S1024x128_1_1_0_0_n_n.contr.Idx) :
    (dot_S1024x768_S128x768_S1024x128_1_1_0_0_n_n.rhsIdx i k 1).val = (k ⟨0, by decide⟩).val :=
  dot_S1024x768_S128x768_S1024x128_1_1_0_0_n_n.rhsIdx_val_of_single rfl i k

/-- The logits' product into the zero accumulator at `(r, q)`: the sum over the column `h` of the left operand at
`(r, h)` times the right operand at `(q, h)`. -/
theorem matmulS_apply (a : FVec Ideal S1024x768 .f32) (b : FVec Ideal S128x768 .f32) (r : Fin 1024) (q : Fin 128) :
    matmul dot_S1024x768_S128x768_S1024x128_1_1_0_0_n_n (some .fp32) a b (constant (F := Ideal) S1024x128 .f32 0x00000000#32) (ix2 r q)
      = ∑ h : Fin 768, a (ix2 r h) * b (ix2 q h) := by
  simp only [matmul]
  rw [Ideal.matmul_constant_zero_apply, ← Equiv.sum_comp (ValueIdx.contrEquiv1 dot_S1024x768_S128x768_S1024x128_1_1_0_0_n_n 768 rfl rfl).symm]
  refine Finset.sum_congr rfl fun h _ => ?_
  have hh := ValueIdx.contrEquiv1_symm_val dot_S1024x768_S128x768_S1024x128_1_1_0_0_n_n 768 rfl rfl h
  have el : dot_S1024x768_S128x768_S1024x128_1_1_0_0_n_n.lhsIdx (ix2 r q) ((ValueIdx.contrEquiv1 dot_S1024x768_S128x768_S1024x128_1_1_0_0_n_n 768 rfl rfl).symm h) = ix2 r h := funext fun c => Fin.ext (by
    match c with
    | ⟨0, _⟩ => exact lhs_dotS_0 _ _
    | ⟨1, _⟩ => exact (lhs_dotS_1 _ _).trans hh)
  have er : dot_S1024x768_S128x768_S1024x128_1_1_0_0_n_n.rhsIdx (ix2 r q) ((ValueIdx.contrEquiv1 dot_S1024x768_S128x768_S1024x128_1_1_0_0_n_n 768 rfl rfl).symm h) = ix2 q h := funext fun c => Fin.ext (by
    match c with
    | ⟨0, _⟩ => exact rhs_dotS_0 _ _
    | ⟨1, _⟩ => exact (rhs_dotS_1 _ _).trans hh)
  rw [el, er]

/-! ## The product of the weights with the projected query rows

The `[1024, 128]` attention weights against the `[128, 768]` projected queries, contracted over the 128 query rows: at
`(r, h)` row `r` of the weights against column `h` of the projection. -/

theorem lhs_dotO_0 (i : S1024x768.Idx) (k : dot_S1024x128_S128x768_S1024x768_1_0_0_1_n_n.contr.Idx) :
    (dot_S1024x128_S128x768_S1024x768_1_0_0_1_n_n.lhsIdx i k 0).val = (i 0).val := by
  unfold DotDims.lhsIdx
  rw [dif_neg (show ¬(0 : Fin S1024x128.rank) ∈ dot_S1024x128_S128x768_S1024x768_1_0_0_1_n_n.lhsBatch by decide), dif_pos (show (0 : Fin S1024x128.rank) ∈ dot_S1024x128_S128x768_S1024x768_1_0_0_1_n_n.lhsNonContracting by decide)]
  rfl
theorem lhs_dotO_1 (i : S1024x768.Idx) (k : dot_S1024x128_S128x768_S1024x768_1_0_0_1_n_n.contr.Idx) :
    (dot_S1024x128_S128x768_S1024x768_1_0_0_1_n_n.lhsIdx i k 1).val = (k ⟨0, by decide⟩).val :=
  dot_S1024x128_S128x768_S1024x768_1_0_0_1_n_n.lhsIdx_val_of_single rfl i k
theorem rhs_dotO_0 (i : S1024x768.Idx) (k : dot_S1024x128_S128x768_S1024x768_1_0_0_1_n_n.contr.Idx) :
    (dot_S1024x128_S128x768_S1024x768_1_0_0_1_n_n.rhsIdx i k 0).val = (k ⟨0, by decide⟩).val :=
  dot_S1024x128_S128x768_S1024x768_1_0_0_1_n_n.rhsIdx_val_of_single rfl i k
theorem rhs_dotO_1 (i : S1024x768.Idx) (k : dot_S1024x128_S128x768_S1024x768_1_0_0_1_n_n.contr.Idx) :
    (dot_S1024x128_S128x768_S1024x768_1_0_0_1_n_n.rhsIdx i k 1).val = (i 1).val := by
  unfold DotDims.rhsIdx
  rw [dif_neg (show ¬(1 : Fin S128x768.rank) ∈ dot_S1024x128_S128x768_S1024x768_1_0_0_1_n_n.rhsBatch by decide), dif_pos (show (1 : Fin S128x768.rank) ∈ dot_S1024x128_S128x768_S1024x768_1_0_0_1_n_n.rhsNonContracting by decide)]
  rfl

/-- The last product into the zero accumulator at `(r, h)`: the sum over the query row `q` of the weight at
`(r, q)` times the projection at `(q, h)`. -/
theorem matmulO_apply (a : FVec Ideal S1024x128 .bf16) (b : FVec Ideal S128x768 .bf16) (r : Fin 1024) (h : Fin 768) :
    matmul dot_S1024x128_S128x768_S1024x768_1_0_0_1_n_n none a b (constant (F := Ideal) S1024x768 .f32 0x00000000#32) (ix2 r h)
      = ∑ q : Fin 128, a (ix2 r q) * b (ix2 q h) := by
  simp only [matmul]
  rw [Ideal.matmul_constant_zero_apply, ← Equiv.sum_comp (ValueIdx.contrEquiv1 dot_S1024x128_S128x768_S1024x768_1_0_0_1_n_n 128 rfl rfl).symm]
  refine Finset.sum_congr rfl fun q _ => ?_
  have hq := ValueIdx.contrEquiv1_symm_val dot_S1024x128_S128x768_S1024x768_1_0_0_1_n_n 128 rfl rfl q
  have el : dot_S1024x128_S128x768_S1024x768_1_0_0_1_n_n.lhsIdx (ix2 r h) ((ValueIdx.contrEquiv1 dot_S1024x128_S128x768_S1024x768_1_0_0_1_n_n 128 rfl rfl).symm q) = ix2 r q := funext fun c => Fin.ext (by
    match c with
    | ⟨0, _⟩ => exact lhs_dotO_0 _ _
    | ⟨1, _⟩ => exact (lhs_dotO_1 _ _).trans hq)
  have er : dot_S1024x128_S128x768_S1024x768_1_0_0_1_n_n.rhsIdx (ix2 r h) ((ValueIdx.contrEquiv1 dot_S1024x128_S128x768_S1024x768_1_0_0_1_n_n 128 rfl rfl).symm q) = ix2 q h := funext fun c => Fin.ext (by
    match c with
    | ⟨0, _⟩ => exact (rhs_dotO_0 _ _).trans hq
    | ⟨1, _⟩ => exact rhs_dotO_1 _ _)
  rw [el, er]

/-! ## The projection of the query rows -/

/-- The first payload at `(q, h)`: query row `q` projected by the weight and rectified, at column `h`. -/
theorem pay1_apply (x1 : Vec Ideal S1x128x768 .f32) (w : Vec Ideal S768x768 .bf16) (q : Fin 128) (h : Fin 768) :
    k0_pay1 (F := Ideal) x1 w (ix2 q h)
      = Cert.CrossAttn.proj (fun e h' => w (ix2 e h')) (fun e => x1 (ix3 (0 : Fin 1) q e)) h := by
  unfold k0_pay1 Cert.CrossAttn.proj
  rw [shapeCast_self, shapeCast_self, maximumf_apply, broadcast_apply]
  refine congrArg (max · _) ?_
  refine (matmulQ_apply _ _ q h).trans (Finset.sum_congr rfl fun e _ => ?_)
  exact congrArg (· * _) (shapeCast_1ab_ab_apply x1 _ q e)

/-! ## A reduced row kept as a column

The row reductions keep their axis: the `[1024]` result is cast to a `[1024, 1]` column and broadcast back over the
128 columns, so that every entry of a row reads the row's one reduced value. -/

/-- A vector `[a]` cast to the column `[a, 1]` and broadcast over `b` columns reads, at `(i, j)`, the vector at `i`. -/
theorem column_apply {α : Type} {a b : ℕ} (y : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ y hc) hb (ix2 i j) = y (ix1 i) := by
  refine (broadcastTo_apply _ hb (ix2 i j) (ix2 i (0 : Fin 1)) fun ax => ?_).trans ?_
  · match ax with
    | ⟨0, _⟩ =>
      show i.val = if a = 1 then 0 else i.val
      split
      · have := i.isLt; omega
      · rfl
    | ⟨1, _⟩ => rfl
  · exact shapeCast_apply y hc _ _ (by
      rw [Shape.rowMajor_val_one, Shape.rowMajor_val_two]
      show i.val = i.val * 1 + 0
      omega)

/-- The row maximum of a `[1024, 128]` block, kept as a column and broadcast back: at `(r, q)` the fold of `max`
from the word of −∞ over the entries of row `r`. -/
theorem rowMaxCol_apply (v : FVec Ideal S1024x128 .f32) (r : Fin 1024) (q : Fin 128) :
    broadcastTo S1024x128 (shapeCast S1024x1 (multiReduction (F := Ideal) .maximumf [1] S1024 v 0xFF800000#32 reduces_S1024x128_S1024 (.inl rfl) rfl) shapeCasts_S1024_S1024x1) broadcasts_S1024x1_S1024x128 (ix2 r q)
      = (Finset.univ : Finset (Fin 128)).fold max (Ideal.ofBits .f32 0xFF800000#32) (fun q' => v (ix2 r q')) := by
  refine (column_apply _ _ _ r q).trans ?_
  refine (Ideal.multiReduction_maximumf_single v _ reduces_S1024x128_S1024 _ _ (ix1 r)).trans ?_
  exact congrArg (fun f => (Finset.univ : Finset (Fin 128)).fold max (Ideal.ofBits .f32 0xFF800000#32) f)
    (funext fun q' => congrArg v (funext fun c => Fin.ext (by match c with | ⟨0, _⟩ => rfl | ⟨1, _⟩ => rfl)))

/-- The row sum of a `[1024, 128]` block, kept as a column and broadcast back: at `(r, q)` the sum of the entries of
row `r`. -/
theorem rowSumCol_apply (v : FVec Ideal S1024x128 .f32) (r : Fin 1024) (q : Fin 128) :
    broadcastTo S1024x128 (shapeCast S1024x1 (multiReduction (F := Ideal) .add [1] S1024 v 0x00000000#32 reduces_S1024x128_S1024 (.inl rfl) rfl) shapeCasts_S1024_S1024x1) broadcasts_S1024x1_S1024x128 (ix2 r q)
      = ∑ q' : Fin 128, v (ix2 r q') := by
  refine (column_apply _ _ _ r q).trans ?_
  refine (Ideal.multiReduction_add_single v _ reduces_S1024x128_S1024 _ _ (ix1 r)).trans ?_
  exact Finset.sum_congr rfl fun q' _ =>
    congrArg v (funext fun c => Fin.ext (by match c with | ⟨0, _⟩ => rfl | ⟨1, _⟩ => rfl))

/-! ## The stages of the second payload

The output payload names, in turn: the projected document block; its logits against the cached projection of the
query rows; the shifted exponentials of the logits. They are written here once, as the payload writes them, so that each
can be read at an index on its own. -/

/-- The document block projected by the weight and rectified. -/
def docProj (x0 : Vec Ideal S1x1024x768 .f32) (w : Vec Ideal S768x768 .bf16) : FVec Ideal S1024x768 .f32 :=
  maximumf
    (matmul dot_S1024x768_S768x768_S1024x768_1_0_0_1_n_n none
      (truncf .bf16 (shapeCast S1024x768 x0 shapeCasts_S1x1024x768_S1024x768 : FVec Ideal S1024x768 .f32) bitsLt_bf16_f32)
      (shapeCast S768x768 w shapeCasts_S768x768_S768x768 : FVec Ideal S768x768 .bf16)
      (constant (F := Ideal) S1024x768 .f32 0x00000000#32))
    (broadcast S1024x768 (Scalar.ofBits (F := Ideal) .f32 0x00000000#32))

/-- The logits of the document rows against the rows of `s`. -/
def logits (x0 : Vec Ideal S1x1024x768 .f32) (w : Vec Ideal S768x768 .bf16) (s : FVec Ideal S128x768 .f32) :
    FVec Ideal S1024x128 .f32 :=
  matmul dot_S1024x768_S128x768_S1024x128_1_1_0_0_n_n (some .fp32) (docProj x0 w) s
    (constant (F := Ideal) S1024x128 .f32 0x00000000#32)

/-- The exponentials of the logits shifted by their row maximum. -/
def shifted (x0 : Vec Ideal S1x1024x768 .f32) (w : Vec Ideal S768x768 .bf16) (s : FVec Ideal S128x768 .f32) :
    FVec Ideal S1024x128 .f32 :=
  exp (subf (logits x0 w s)
    (broadcastTo S1024x128 (shapeCast S1024x1 (multiReduction (F := Ideal) .maximumf [1] S1024 (logits x0 w s) 0xFF800000#32 reduces_S1024x128_S1024 (.inl rfl) rfl) shapeCasts_S1024_S1024x1) broadcasts_S1024x1_S1024x128))

/-- The projected document block at `(r, h)`: document row `r` projected by the weight and rectified, at column `h`. -/
theorem docProj_apply (x0 : Vec Ideal S1x1024x768 .f32) (w : Vec Ideal S768x768 .bf16) (r : Fin 1024) (h : Fin 768) :
    docProj x0 w (ix2 r h)
      = Cert.CrossAttn.proj (fun e h' => w (ix2 e h')) (fun e => x0 (ix3 (0 : Fin 1) r e)) h := by
  unfold docProj Cert.CrossAttn.proj
  rw [shapeCast_self, maximumf_apply, broadcast_apply]
  refine congrArg (max · _) ?_
  refine (matmulD_apply _ _ r h).trans (Finset.sum_congr rfl fun e _ => ?_)
  exact congrArg (· * _) (shapeCast_1ab_ab_apply x0 _ r e)

/-- The logit at `(r, q)` against the cached projection of the query rows: the inner product of the projections of
document row `r` and query row `q`. -/
theorem logits_apply (x0 : Vec Ideal S1x1024x768 .f32) (x1 : Vec Ideal S1x128x768 .f32) (w : Vec Ideal S768x768 .bf16)
    (r : Fin 1024) (q : Fin 128) :
    logits x0 w (k0_pay1 (F := Ideal) x1 w) (ix2 r q)
      = Cert.CrossAttn.score (fun e h' => w (ix2 e h')) (fun e => x0 (ix3 (0 : Fin 1) r e))
          (fun e => x1 (ix3 (0 : Fin 1) q e)) := by
  unfold logits Cert.CrossAttn.score
  refine (matmulS_apply _ _ r q).trans (Finset.sum_congr rfl fun h _ => ?_)
  exact congrArg₂ (· * ·) (docProj_apply x0 w r h) (pay1_apply x1 w q h)

/-- The shifted exponential at `(r, q)`. -/
theorem shifted_apply (x0 : Vec Ideal S1x1024x768 .f32) (x1 : Vec Ideal S1x128x768 .f32) (w : Vec Ideal S768x768 .bf16)
    (r : Fin 1024) (q : Fin 128) :
    shifted x0 w (k0_pay1 (F := Ideal) x1 w) (ix2 r q)
      = Cert.CrossAttn.expo (fun e h' => w (ix2 e h')) (fun e => x0 (ix3 (0 : Fin 1) r e))
          (fun q' e => x1 (ix3 (0 : Fin 1) q' e)) q := by
  unfold shifted Cert.CrossAttn.expo Cert.CrossAttn.rowMax
  show Ideal.exp (_ - _) = Ideal.exp (_ - _)
  refine congrArg Ideal.exp (congrArg₂ (· - ·) (logits_apply x0 x1 w r q) ?_)
  refine (rowMaxCol_apply _ r q).trans ?_
  exact congrArg (fun f => (Finset.univ : Finset (Fin 128)).fold max Cert.CrossAttn.negInf f)
    (funext fun q' => logits_apply x0 x1 w r q')

/-! ## The output payload at an index -/

/-- The output payload over the cached query projection, at row `r` and column `h`: the softmax weights of
document row `r` against the 128 query rows, applied to the projected query rows at column `h`. -/
theorem pay2_apply (x0 : Vec Ideal S1x1024x768 .f32) (x1 : Vec Ideal S1x128x768 .f32) (w : Vec Ideal S768x768 .bf16)
    (r : Fin 1024) (h : Fin 768) :
    k0_pay2 (F := Ideal) x0 w (k0_pay1 (F := Ideal) x1 w) (ix3 (0 : Fin 1) r h)
      = Cert.CrossAttn.rowOut (fun e h' => w (ix2 e h')) (fun e => x0 (ix3 (0 : Fin 1) r e)) (fun q e => x1 (ix3 (0 : Fin 1) q e)) h := by
  unfold k0_pay2 Cert.CrossAttn.rowOut
  refine (shapeCast_ab_1ab_apply _ _ (0 : Fin 1) r h).trans ?_
  refine (matmulO_apply _ _ r h).trans (Finset.sum_congr rfl fun q _ => ?_)
  refine congrArg₂ (· * ·) ?_ (pay1_apply x1 w q h)
  show Ideal.div (shifted x0 w (k0_pay1 (F := Ideal) x1 w) (ix2 r q))
      (broadcastTo S1024x128 (shapeCast S1024x1 (multiReduction (F := Ideal) .add [1] S1024 (shifted x0 w (k0_pay1 (F := Ideal) x1 w)) 0x00000000#32 reduces_S1024x128_S1024 (.inl rfl) rfl) shapeCasts_S1024_S1024x1) broadcasts_S1024x1_S1024x128 (ix2 r q)) = _
  refine congrArg₂ Ideal.div (shifted_apply x0 x1 w r q) ?_
  unfold Cert.CrossAttn.denom
  refine (rowSumCol_apply _ r q).trans ?_
  exact Finset.sum_congr rfl fun q' _ => shifted_apply x0 x1 w r q'

end Cert.KernelIdeal.Body

end
-- ==== Proof.Carry.lean ====
import proofs.«415042_j68616397521532_3_alg».proof.Proof.Gen.KernelIdeal.Value
import Idealize.ShloMosaic.Lib.Pipeline.Value
import Idealize.ShloMosaic.Lib.Tactic

/-!
# The carried scratch: what every grid point leaves in the output block

The grid has 64 points, `t = 4·batch + tile`. The scratch holds the relu'd query projection of the CURRENT batch:
it is written at the batch's first tile (`t % 4 = 0`) and only read at the three tiles after it. As the query block
and the weight block do not move inside a batch, the scratch after ANY point `t` is the projection of point `t`'s own
query and weight blocks, and so the output block after point `t` is the attention rows of point `t`'s doc block over
that projection — one closed form for all 64 points.
-/

noncomputable section

open Idealize.ShloMosaic Idealize.ShloMosaic.TcCoe Idealize.SL.Sem

namespace Cert.KernelIdeal.Carry
open Cert.KernelIdeal Cert.KernelIdeal.Gen
variable {F : FTy → Type} [FloatOps F]
variable (m : (ℓ : Loc nD τ sig) → Buf (Elt F) ℓ)

/-- The two spellings of the zero offsets of a rank-2 and a rank-3 buffer. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## What one grid point leaves, case by case

At a first tile of a batch (case A) the body writes the relu'd query projection `k0_pay1 q w` of the query block `q`
and the weights `w` over the WHOLE scratch, reads the scratch back, and writes the attention rows `k0_pay2 d w ·` of
the doc block `d` over that projection into the whole output block. At a later tile (case B) the scratch is only read:
the output block is `k0_pay2 d w s` over whatever `s` the scratch holds. -/

/-- Case A, the scratch: one store through the whole buffer, so the scratch ends at its payload, the projection. -/
theorem sout_A (c : Dev nD) (i : grid0.Coords) (a2 : Memref sig .tc .vmem S1x1024x768 .f32) (h2 : a2.IsWhole)
    (a3 : Memref sig .tc .vmem S1x128x768 .f32) (h3 : a3.IsWhole) (a4 : Memref sig .tc .vmem S768x768 .bf16) (h4 : a4.IsWhole)
    (a5 : Memref sig .tc .vmem S1x1024x768 .f32) (h5 : a5.IsWhole) (a6 : Memref sig .tc .vmem S128x768 .f32) (h6 : a6.IsWhole)
    (hc : cond0_0 i) (x0 : Vec F S1x1024x768 .f32) (x1 : Vec F S1x128x768 .f32) (x2 : Vec F S768x768 .bf16) :
    sout0_A_0 c i a2 h2 a3 h3 a4 h4 a5 h5 a6 h6 hc x0 x1 x2 = k0_pay1 x1 x2 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero (S := S128x768) hz2]
  simp only [View.readAt_eq_ld, h3.read_unread, h4.read_unread, View.ld_unit_zero (S := S1x128x768) hz3,
    View.ld_unit_zero (S := S768x768) hz2]

/-- Case A, the output block: the scratch is read AFTER the projection was stored into it, so the read gives the
    projection back, and the one store through the whole output block leaves the attention rows over it. -/
theorem out_A (c : Dev nD) (i : grid0.Coords) (a2 : Memref sig .tc .vmem S1x1024x768 .f32) (h2 : a2.IsWhole)
    (a3 : Memref sig .tc .vmem S1x128x768 .f32) (h3 : a3.IsWhole) (a4 : Memref sig .tc .vmem S768x768 .bf16) (h4 : a4.IsWhole)
    (a5 : Memref sig .tc .vmem S1x1024x768 .f32) (h5 : a5.IsWhole) (a6 : Memref sig .tc .vmem S128x768 .f32) (h6 : a6.IsWhole)
    (hc : cond0_0 i) (x0 : Vec F S1x1024x768 .f32) (x1 : Vec F S1x128x768 .f32) (x2 : Vec F S768x768 .bf16) :
    out0_A_3 c i a2 h2 a3 h3 a4 h4 a5 h5 a6 h6 hc x0 x1 x2 = k0_pay2 x0 x2 (k0_pay1 x1 x2) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero (S := S1x1024x768) hz3]
  simp only [View.readAt_eq_ld, h2.read_unread, h3.read_unread, h4.read_unread,
    View.readCov_unit_zero (S := S128x768) _ hz2, View.ld_unit_zero (S := S1x1024x768) hz3,
    View.ld_unit_zero (S := S1x128x768) hz3, View.ld_unit_zero (S := S768x768) hz2]

/-- Case B, the output block: the attention rows over the scratch's contents `xs`, whatever they are. -/
theorem out_B (c : Dev nD) (i : grid0.Coords) (a2 : Memref sig .tc .vmem S1x1024x768 .f32) (h2 : a2.IsWhole)
    (a3 : Memref sig .tc .vmem S1x128x768 .f32) (h3 : a3.IsWhole) (a4 : Memref sig .tc .vmem S768x768 .bf16) (h4 : a4.IsWhole)
    (a5 : Memref sig .tc .vmem S1x1024x768 .f32) (h5 : a5.IsWhole) (a6 : Memref sig .tc .vmem S128x768 .f32) (h6 : a6.IsWhole)
    (hc : ¬cond0_0 i) (x0 : Vec F S1x1024x768 .f32) (x1 : Vec F S1x128x768 .f32) (x2 : Vec F S768x768 .bf16)
    (xs : Vec F S128x768 .f32) :
    out0_B_3 c i a2 h2 a3 h3 a4 h4 a5 h5 a6 h6 hc x0 x1 x2 xs = k0_pay2 x0 x2 xs := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero (S := S1x1024x768) hz3]
  simp only [View.readAt_eq_ld, h2.read_unread, h4.read_unread, h6.read_unread,
    View.ld_unit_zero (S := S1x1024x768) hz3, View.ld_unit_zero (S := S128x768) hz2,
    View.ld_unit_zero (S := S768x768) hz2]

/-! ## The invariant of the carried scratch -/

/-- After every point the scratch holds the query projection of THAT point's query and weight blocks: stored there
    at a first tile; at a later tile it is what the point before left, and that point's blocks are this point's. -/
theorem scratch_eq (c : Dev nD)
    (hq : ∀ (t : Fin cfg0.N) (_ : ¬ t.val % 4 = 0),
      (iblk m c 1 ⟨t.val - 1, Nat.lt_of_le_of_lt (Nat.sub_le _ _) t.isLt⟩ : Vec F S1x128x768 .f32) = iblk m c 1 t)
    (hw : ∀ (t : Fin cfg0.N) (_ : ¬ t.val % 4 = 0),
      (iblk m c 2 ⟨t.val - 1, Nat.lt_of_le_of_lt (Nat.sub_le _ _) t.isLt⟩ : Vec F S768x768 .bf16) = iblk m c 2 t)
    (n : ℕ) : ∀ (hn : n < cfg0.N),
      (outsAt0 m c n hn).2 = k0_pay1 (iblk m c 1 ⟨n, hn⟩) (iblk m c 2 ⟨n, hn⟩) := by
  induction n using Nat.strong_induction_on with
  | _ n ih =>
    intro hn
    by_cases h0 : n % 4 = 0
    · rw [outsAt0_A m c ⟨n, hn⟩ h0]
      dsimp only
      exact sout_A c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) (ms0_3 ⟨n, hn⟩) (hs0_3 ⟨n, hn⟩) scM0_0 (Memref.isWhole_whole _)
        ((hcond0_0 ⟨n, hn⟩).mpr h0) (iblk m c 0 ⟨n, hn⟩) (iblk m c 1 ⟨n, hn⟩) (iblk m c 2 ⟨n, hn⟩)
    · rw [outsAt0_B m c ⟨n, hn⟩ h0]
      dsimp only
      unfold sout0_B_0
      have hpos : n - 1 < n := by omega
      refine (ih (n - 1) hpos (Nat.lt_of_le_of_lt (Nat.sub_le _ _) hn)).trans ?_
      rw [hq ⟨n, hn⟩ h0, hw ⟨n, hn⟩ h0]

/-! ## The output block -/

/-- What every point leaves in the output's staging buffer: the attention rows of its own document block over the
    query projection of its own batch. -/
theorem out_eq (c : Dev nD)
    (hq : ∀ (t : Fin cfg0.N) (_ : ¬ t.val % 4 = 0),
      (iblk m c 1 ⟨t.val - 1, Nat.lt_of_le_of_lt (Nat.sub_le _ _) t.isLt⟩ : Vec F S1x128x768 .f32) = iblk m c 1 t)
    (hw : ∀ (t : Fin cfg0.N) (_ : ¬ t.val % 4 = 0),
      (iblk m c 2 ⟨t.val - 1, Nat.lt_of_le_of_lt (Nat.sub_le _ _) t.isLt⟩ : Vec F S768x768 .bf16) = iblk m c 2 t)
    (t : Fin cfg0.N) :
    (outsAt0 m c t.val t.isLt).1
      = k0_pay2 (iblk m c 0 t) (iblk m c 2 t) (k0_pay1 (iblk m c 1 t) (iblk m c 2 t)) := by
  by_cases h0 : t.val % 4 = 0
  · rw [outsAt0_A m c t h0]
    dsimp only
    exact out_A c (grid0.coords t) (ms0_0 t) (hs0_0 t) (ms0_1 t) (hs0_1 t) (ms0_2 t) (hs0_2 t) (ms0_3 t) (hs0_3 t)
      scM0_0 (Memref.isWhole_whole _) ((hcond0_0 t).mpr h0) (iblk m c 0 t) (iblk m c 1 t) (iblk m c 2 t)
  · rw [outsAt0_B m c t h0]
    dsimp only
    refine (out_B c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2).trans ?_
    rw [scratch_eq m c hq hw (t.val - 1) (Nat.lt_of_le_of_lt (Nat.sub_le _ _) t.isLt), hq t h0, hw t h0]

end Cert.KernelIdeal.Carry
end
-- ==== Proof.KernelValue.lean ====
/-
  The kernel's result array as one function of its arguments.

  Point `t` of the grid (tile `t % 4` of batch `t / 4`) leaves in the result's staging block the output payload
  of its document block over the cached query projection of its own batch; read row by row that is the
  specification's `rowOut` of document row `1024·(t % 4) + r` of batch `t / 4` against that batch's queries.
  The 64 blocks tile the result array — index (b, d, h) lies in the block of point `4·b + d / 1024` — so after
  the run the array is the whole-array result of the arguments. The one host operation before the region only
  changes the weights' float format, the identity on the extended reals.
-/
import proofs.«415042_j68616397521532_3_alg».proof.Proof.Gen.KernelIdeal.Value
import proofs.«415042_j68616397521532_3_alg».proof.Proof.Blocks
import proofs.«415042_j68616397521532_3_alg».proof.Proof.Whole
import proofs.«415042_j68616397521532_3_alg».proof.Proof.Payload
import proofs.«415042_j68616397521532_3_alg».proof.Proof.Carry
import Idealize.ShloMosaic.Lib.StableHlo.Run
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem ValueIdx
open Idealize.ShloMosaic.Pipeline (Dat)

variable (m : (ℓ : Loc nD τ sig) → Buf (Elt Ideal) ℓ) (ρ : Dev nD → PrngReg)

/-- The region finds the weights as launched: the one host operation before it only changes their float
    format, which is the identity on the extended reals. -/
theorem weights_entry (c : Dev nD) :
    (V m c main_v0 : S768x768.Idx → EReal) = m ((c : Thread nD τ).loc main_arg2) := by
  dsimp only [Gen.V, Gen.hostOps0]
  after_results
  rfl

/-- The array index of row `r`, column `h` of the result block at point `t`. -/
theorem out_emb (t : Fin cfg0.N) (r : Fin 1024) (h : Fin 768) :
    ((cfg0.win 3).blk t).view.emb (ix3 (0 : Fin 1) r h)
      = ix3 (⟨t.val / 4, by have := Blocks.lt64 t; omega⟩ : Fin 16)
          (⟨1024 * (t.val % 4) + r.val, by have := r.isLt; omega⟩ : Fin 4096) h := by
  obtain ⟨-, -, -, -, -, -, -, -, e0, e1, e2⟩ := Blocks.idx_facts t
  refine funext fun a => Fin.ext ?_
  match a with
  | ⟨0, _⟩ => show win0_3.index t (0 : Fin 3) * 1 + 1 * 0 = t.val / 4; omega
  | ⟨1, _⟩ => show win0_3.index t (1 : Fin 3) * 1024 + 1 * r.val = 1024 * (t.val % 4) + r.val; omega
  | ⟨2, _⟩ => show win0_3.index t (2 : Fin 3) * 768 + 1 * h.val = h.val; omega

/-- What point `t` writes back is block `t` of the whole-array result of the arrays as the region finds them:
    the point leaves the output payload of its document block over the cached query projection, which is the
    projection of ITS batch's queries; row by row that is `rowOut`, and the blocks are read where the result's
    block lies. -/
theorem flushed_eq (c : Dev nD) (t : Fin cfg0.N) :
    (dats m 0 c).flushed 3 t
      = ((cfg0.win 3).blk t).view.read (Elt Ideal)
          (Cert.CrossAttn.whole (V m c main_arg0) (V m c main_arg1) (V m c main_v0)) := by
  rw [Value.flushed3, Carry.out_eq m c (Blocks.query_same m c) (Blocks.weight_same m c) t]
  refine Blocks.ext_unit3 _ _ fun r h => ?_
  show k0_pay2 (F := Ideal) (iblk m c 0 t) (iblk m c 2 t) (k0_pay1 (F := Ideal) (iblk m c 1 t) (iblk m c 2 t)) (ix3 (0 : Fin 1) r h)
    = Cert.CrossAttn.whole (V m c main_arg0) (V m c main_arg1) (V m c main_v0) (((cfg0.win 3).blk t).view.emb (ix3 (0 : Fin 1) r h))
  rw [Body.pay2_apply, out_emb, Cert.CrossAttn.whole_apply]
  have hW : (fun (e h' : Fin 768) => (iblk m c 2 t : Vec Ideal S768x768 .bf16) (ix2 e h'))
      = fun e h' => V m c main_v0 (ix2 e h') := funext fun e => funext fun h' => Blocks.weight_read m c t e h'
  have hD : (fun e : Fin 768 => (iblk m c 0 t : Vec Ideal S1x1024x768 .f32) (ix3 (0 : Fin 1) r e))
      = fun e => V m c main_arg0 (ix3 (⟨t.val / 4, by have := Blocks.lt64 t; omega⟩ : Fin 16)
          (⟨1024 * (t.val % 4) + r.val, by have := r.isLt; omega⟩ : Fin 4096) e) :=
    funext fun e => Blocks.doc_read m c t r e
  have hQ : (fun (q : Fin 128) (e : Fin 768) => (iblk m c 1 t : Vec Ideal S1x128x768 .f32) (ix3 (0 : Fin 1) q e))
      = fun q e => V m c main_arg1 (ix3 (⟨t.val / 4, by have := Blocks.lt64 t; omega⟩ : Fin 16) q e) :=
    funext fun q => funext fun e => Blocks.query_read m c t q e
  rw [hW, hD, hQ]

/-- An index of the result array is in point `t`'s block iff each coordinate is in the block's range. -/
theorem mem_blk (t : Fin cfg0.N) (i : S16x4096x768.Idx) :
    i ∈ ((cfg0.win 3).blk t).view.set ↔ ∀ a : Fin 3, win0_3.index t a * S1x1024x768.size a ≤ (i a).val
      ∧ (i a).val < win0_3.index t a * S1x1024x768.size a + S1x1024x768.size a := by
  show i ∈ ((View.whole main_v1).slice (win0_3.rect t)).set ↔ _
  rw [View.set_slice_whole, Rect.mem_set_unit]
  exact Iff.rfl

/-- Every index (b, d, h) of the result lies in the block of point `4·b + d / 1024`. -/
theorem cover (i : S16x4096x768.Idx) :
    ∃ t : Fin cfg0.N, (cfg0.win 3).flush t = true ∧ i ∈ ((cfg0.win 3).blk t).view.set := by
  have hi0 : (i 0).val < 16 := (i 0).isLt
  have hi1 : (i 1).val < 4096 := (i 1).isLt
  have hi2 : (i 2).val < 768 := (i 2).isLt
  let t : Fin cfg0.N := ⟨4 * (i 0).val + (i 1).val / 1024, by rw [show cfg0.N = 64 from N_0]; omega⟩
  obtain ⟨-, -, -, -, -, -, -, -, e0, e1, e2⟩ := Blocks.idx_facts t
  have ht : t.val = 4 * (i 0).val + (i 1).val / 1024 := rfl
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 768 ≤ (i 2).val ∧ (i 2).val < win0_3.index t (2 : Fin 3) * 768 + 768; omega

/-- The result array after the run is the whole-array result of the arguments as launched. -/
theorem final (c : Dev nD) :
    (dats m 0 c).arrAt 3 cfg0.N
      = Cert.CrossAttn.whole (m ((c : Thread nD τ).loc main_arg0)) (m ((c : Thread nD τ).loc main_arg1))
          (m ((c : Thread nD τ).loc main_arg2)) := by
  rw [(dats m 0 c).arrAt_eq_of_cover 3
    (Cert.CrossAttn.whole (V m c main_arg0) (V m c main_arg1) (V m c main_v0))
    (fun t _ => flushed_eq m c t) cover]
  rw [V_main_arg0, V_main_arg1, weights_entry]

/-- The kernel's run: it terminates with the result array at the whole-array result of its arguments, the
    arguments unchanged. -/
theorem run : θ_run defs (onTc (τ := τ) (main (F := Ideal))) ⟨m, fun _ => 0, ρ⟩ fun r => ∀ c : Dev nD,
      r.2.mem ((c : Thread nD τ).loc main_v1)
        = Cert.CrossAttn.whole (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefValue.lean ====
/-
  The reference program's result, read at one index (b, d, h), is the cross-attention of the specification.

  Each stage of the reference is read at explicit coordinates, innermost first:
  the two rectified projections (document rows and query rows), the logits, the row maximum as a fold of
  max over the 128 query rows from the word of −∞, the shifted exponentials, their sum over the query rows,
  the quotient, and the final weighted sum of the projected query rows.
-/
import proofs.«415042_j68616397521532_3_alg».proof.Proof.Gen.ReferenceIdeal.Read
import proofs.«415042_j68616397521532_3_alg».proof.Proof.Spec
import Idealize.ShloMosaic.Lib.ValueIdx
import Idealize.ShloMosaic.PureOps.Ideal.Laws
import Idealize.ShloMosaic.PureOps.Reduce

noncomputable section

open Idealize.ShloMosaic Idealize.ShloMosaic.TcCoe Idealize.SL.Sem ValueIdx

namespace Cert.ReferenceIdeal.RefValue

open Cert.ReferenceIdeal Cert.ReferenceIdeal.Gen Cert.ReferenceIdeal.Read

variable (D : FVec Ideal S16x4096x768 .f32) (Qa : FVec Ideal S16x128x768 .f32) (W : FVec Ideal S768x768 .f32)

/-! ## The projections -/

/-- The document projection's contraction reads row (b, d) of the documents at column k … -/
private theorem lidx_v0 (b : Fin 16) (d : Fin 4096) (h k : Fin 768) :
    lidx_main_v0 (ix3 b d h) k = ix3 b d k :=
  funext fun a => Fin.ext (by match a with | ⟨0, _⟩ => rfl | ⟨1, _⟩ => rfl | ⟨2, _⟩ => rfl)

/-- … against entry (k, h) of the weight. -/
private theorem ridx_v0 (b : Fin 16) (d : Fin 4096) (h k : Fin 768) :
    ridx_main_v0 (ix3 b d h) k = ix2 k h :=
  funext fun a => Fin.ext (by match a with | ⟨0, _⟩ => rfl | ⟨1, _⟩ => rfl)

/-- The query projection's contraction reads row (b, q) of the queries at column k … -/
private theorem lidx_v2 (b : Fin 16) (q : Fin 128) (h k : Fin 768) :
    lidx_main_v2 (ix3 b q h) k = ix3 b q k :=
  funext fun a => Fin.ext (by match a with | ⟨0, _⟩ => rfl | ⟨1, _⟩ => rfl | ⟨2, _⟩ => rfl)

/-- … against entry (k, h) of the weight. -/
private theorem ridx_v2 (b : Fin 16) (q : Fin 128) (h k : Fin 768) :
    ridx_main_v2 (ix3 b q h) k = ix2 k h :=
  funext fun a => Fin.ext (by match a with | ⟨0, _⟩ => rfl | ⟨1, _⟩ => rfl)

/-- The rectified document projection at (b, d, h) is the projection of document row (b, d) at column h. -/
theorem docProj_apply (b : Fin 16) (d : Fin 4096) (h : Fin 768) :
    val_main_v1 (F := Ideal) D W (ix3 b d h)
      = Cert.CrossAttn.proj (fun e h' => W (ix2 e h')) (fun e => D (ix3 b d e)) h := by
  rw [val_main_v1_apply, val_main_v0_apply, val_main_call0_v0_apply, val_main_call0_cst_apply]
  unfold Cert.CrossAttn.proj
  refine congrArg (fun s => max s (Ideal.ofBits .f32 0x00000000#32)) (Finset.sum_congr rfl fun k _ => ?_)
  rw [lidx_v0, ridx_v0]

/-- The rectified query projection at (b, q, h) is the projection of query row (b, q) at column h. -/
theorem qryProj_apply (b : Fin 16) (q : Fin 128) (h : Fin 768) :
    val_main_v3 (F := Ideal) Qa W (ix3 b q h)
      = Cert.CrossAttn.proj (fun e h' => W (ix2 e h')) (fun e => Qa (ix3 b q e)) h := by
  rw [val_main_v3_apply, val_main_v2_apply, val_main_call1_v0_apply, val_main_call1_cst_apply]
  unfold Cert.CrossAttn.proj
  refine congrArg (fun s => max s (Ideal.ofBits .f32 0x00000000#32)) (Finset.sum_congr rfl fun k _ => ?_)
  rw [lidx_v2, ridx_v2]

/-! ## The logits -/

/-- The logits' contraction reads the projected document row (b, d) at column k … -/
private theorem lidx_v4 (b : Fin 16) (d : Fin 4096) (q : Fin 128) (k : Fin 768) :
    lidx_main_v4 (ix3 b d q) k = ix3 b d k :=
  funext fun a => Fin.ext (by match a with | ⟨0, _⟩ => rfl | ⟨1, _⟩ => rfl | ⟨2, _⟩ => rfl)

/-- … against the projected query row (b, q) at column k. -/
private theorem ridx_v4 (b : Fin 16) (d : Fin 4096) (q : Fin 128) (k : Fin 768) :
    ridx_main_v4 (ix3 b d q) k = ix3 b q k :=
  funext fun a => Fin.ext (by match a with | ⟨0, _⟩ => rfl | ⟨1, _⟩ => rfl | ⟨2, _⟩ => rfl)

/-- The logit at (b, d, q) is the inner product of the two projections. -/
theorem score_apply (b : Fin 16) (d : Fin 4096) (q : Fin 128) :
    val_main_v4 (F := Ideal) D Qa W (ix3 b d q)
      = Cert.CrossAttn.score (fun e h' => W (ix2 e h')) (fun e => D (ix3 b d e)) (fun e => Qa (ix3 b q e)) := by
  rw [val_main_v4_apply]
  unfold Cert.CrossAttn.score
  refine Finset.sum_congr rfl fun k _ => ?_
  rw [lidx_v4, ridx_v4, docProj_apply, qryProj_apply]

/-! ## The row maximum -/

/-- Putting query coordinate k back into the reduced index (b, d) gives (b, d, k). -/
private theorem lift_bd (hr : S16x4096x128.Reduces [2] S16x4096) (b : Fin 16) (d : Fin 4096)
    (k : Fin (S16x4096x128.size 2)) :
    hr.lift (ix2 b d) k = ix3 b d (⟨k.val, k.isLt⟩ : Fin 128) :=
  funext fun a => Fin.ext (by match a with | ⟨0, _⟩ => rfl | ⟨1, _⟩ => rfl | ⟨2, _⟩ => rfl)

/-- The max-reduce over the query axis at (b, d) is the fold of max from −∞ over the 128 logits of that row. -/
theorem rowMax_apply (b : Fin 16) (d : Fin 4096) :
    val_main_v5 (F := Ideal) D Qa W (ix2 b d)
      = Cert.CrossAttn.rowMax (fun e h' => W (ix2 e h')) (fun e => D (ix3 b d e)) (fun q e => Qa (ix3 b q e)) := by
  have hr : S16x4096x128.Reduces [2] S16x4096 := by decide
  unfold val_main_v5
  rw [Host.reduce_eq_fold_single (FloatOps.maximumf (F := Ideal) (φ := .f32)) _ _ reducesTo_S16x4096x128_S16x4096_d2 hr h_S_]
  have hf : (val_main_v4 (F := Ideal) D Qa W ∘ hr.lift (ix2 b d))
      = fun q : Fin 128 => Cert.CrossAttn.score (fun e h' => W (ix2 e h')) (fun e => D (ix3 b d e)) (fun e => Qa (ix3 b q e)) :=
    funext fun k => by
      show val_main_v4 (F := Ideal) D Qa W (hr.lift (ix2 b d) k) = _
      rw [lift_bd, score_apply]
      rfl
  rw [hf]
  rfl

/-- Taking max with −∞ once more leaves the row maximum. -/
theorem rowMax'_apply (b : Fin 16) (d : Fin 4096) :
    val_main_v7 (F := Ideal) D Qa W (ix2 b d)
      = Cert.CrossAttn.rowMax (fun e h' => W (ix2 e h')) (fun e => D (ix3 b d e)) (fun q e => Qa (ix3 b q e)) := by
  rw [val_main_v7_apply, val_main_v6_apply, val_main_cst_0_apply, rowMax_apply]
  exact Cert.CrossAttn.max_negInf_left _

/-- The two broadcasts of a per-row value read it back at (b, d). -/
private theorem idx_v8_v9 (b : Fin 16) (d : Fin 4096) (q : Fin 128) :
    idx_main_v8 (idx_main_v9 (ix3 b d q)) = ix2 b d :=
  funext fun a => Fin.ext (by match a with | ⟨0, _⟩ => rfl | ⟨1, _⟩ => rfl)

/-- The row maximum broadcast along the query axis. -/
theorem rowMaxB_apply (b : Fin 16) (d : Fin 4096) (q : Fin 128) :
    val_main_v9 (F := Ideal) D Qa W (ix3 b d q)
      = Cert.CrossAttn.rowMax (fun e h' => W (ix2 e h')) (fun e => D (ix3 b d e)) (fun q e => Qa (ix3 b q e)) := by
  rw [val_main_v9_apply, val_main_v8_apply, idx_v8_v9, rowMax'_apply]

/-! ## The shifted exponentials, their sum, and the quotient -/

/-- The exponential of the shifted logit at (b, d, q). -/
theorem expo_apply (b : Fin 16) (d : Fin 4096) (q : Fin 128) :
    val_main_v11 (F := Ideal) D Qa W (ix3 b d q)
      = Cert.CrossAttn.expo (fun e h' => W (ix2 e h')) (fun e => D (ix3 b d e)) (fun q e => Qa (ix3 b q e)) q := by
  rw [val_main_v11_apply, val_main_v10_apply, score_apply, rowMaxB_apply]
  rfl

/-- The add-reduce at (b, d) runs over (b, d, k). -/
private theorem idx_v12 (b : Fin 16) (d : Fin 4096) (k : Fin 128) :
    idx_main_v12 (ix2 b d) k = ix3 b d k :=
  funext fun a => Fin.ext (by match a with | ⟨0, _⟩ => rfl | ⟨1, _⟩ => rfl | ⟨2, _⟩ => rfl)

/-- The add-reduce over the query axis at (b, d), started from the zero word, is the denominator. -/
theorem denom_apply (b : Fin 16) (d : Fin 4096) :
    val_main_v12 (F := Ideal) D Qa W (ix2 b d)
      = Cert.CrossAttn.denom (fun e h' => W (ix2 e h')) (fun e => D (ix3 b d e)) (fun q e => Qa (ix3 b q e)) := by
  rw [val_main_v12_apply, val_main_cst_1_apply, Ideal.ofBits_def, Ideal.ofBits_zero_f32, zero_add]
  unfold Cert.CrossAttn.denom
  refine Finset.sum_congr rfl fun k _ => ?_
  rw [idx_v12, expo_apply]

/-- The two broadcasts of the denominator read it back at (b, d). -/
private theorem idx_v13_v14 (b : Fin 16) (d : Fin 4096) (q : Fin 128) :
    idx_main_v13 (idx_main_v14 (ix3 b d q)) = ix2 b d :=
  funext fun a => Fin.ext (by match a with | ⟨0, _⟩ => rfl | ⟨1, _⟩ => rfl)

/-- The denominator broadcast along the query axis. -/
theorem denomB_apply (b : Fin 16) (d : Fin 4096) (q : Fin 128) :
    val_main_v14 (F := Ideal) D Qa W (ix3 b d q)
      = Cert.CrossAttn.denom (fun e h' => W (ix2 e h')) (fun e => D (ix3 b d e)) (fun q e => Qa (ix3 b q e)) := by
  rw [val_main_v14_apply, val_main_v13_apply, idx_v13_v14, denom_apply]

/-- The softmax weight at (b, d, q). -/
theorem weight_apply (b : Fin 16) (d : Fin 4096) (q : Fin 128) :
    val_main_v15 (F := Ideal) D Qa W (ix3 b d q)
      = Ideal.div (Cert.CrossAttn.expo (fun e h' => W (ix2 e h')) (fun e => D (ix3 b d e)) (fun q e => Qa (ix3 b q e)) q)
          (Cert.CrossAttn.denom (fun e h' => W (ix2 e h')) (fun e => D (ix3 b d e)) (fun q e => Qa (ix3 b q e))) := by
  rw [val_main_v15_apply, expo_apply, denomB_apply]
  rfl

/-! ## The result -/

/-- The last contraction reads the weight at (b, d, k) … -/
private theorem lidx_v16 (b : Fin 16) (d : Fin 4096) (h : Fin 768) (k : Fin 128) :
    lidx_main_v16 (ix3 b d h) k = ix3 b d k :=
  funext fun a => Fin.ext (by match a with | ⟨0, _⟩ => rfl | ⟨1, _⟩ => rfl | ⟨2, _⟩ => rfl)

/-- … against the projected query row (b, k) at column h. -/
private theorem ridx_v16 (b : Fin 16) (d : Fin 4096) (h : Fin 768) (k : Fin 128) :
    ridx_main_v16 (ix3 b d h) k = ix3 b k h :=
  funext fun a => Fin.ext (by match a with | ⟨0, _⟩ => rfl | ⟨1, _⟩ => rfl | ⟨2, _⟩ => rfl)

/-- The reference's last stage at (b, d, h) is the specification's row of the result. -/
theorem ref_apply (D : FVec Ideal S16x4096x768 .f32) (Qa : FVec Ideal S16x128x768 .f32) (W : FVec Ideal S768x768 .f32)
    (b : Fin 16) (d : Fin 4096) (h : Fin 768) :
    val_main_v16 (F := Ideal) D Qa W (ix3 b d h)
      = Cert.CrossAttn.rowOut (fun e h' => W (ix2 e h')) (fun e => D (ix3 b d e)) (fun q e => Qa (ix3 b q e)) h := by
  rw [val_main_v16_apply]
  unfold Cert.CrossAttn.rowOut
  refine Finset.sum_congr rfl fun k _ => ?_
  rw [lidx_v16, ridx_v16, weight_apply, qryProj_apply]

end Cert.ReferenceIdeal.RefValue

end
-- ==== Proof.lean ====
/-
  The kernel — a fused cross-attention over 16 batches, each of 4096 document rows in four tiles of 1024, with
  the rectified query projection of a batch computed at its first tile and kept for the other three — against
  its plain reference: project documents and queries by the same weights and rectify, take the logits of every
  document row against the 128 query rows of its batch, normalise them by a softmax over the queries, and sum
  the projected query rows with those weights.

  Over the extended reals the two programs are the SAME composition of the same operations (a change of float
  format is the identity, a matrix product into a zero accumulator is the plain product, the reference's second
  `max` with −∞ changes nothing), so their results are one function of the arguments, `Cert.CrossAttn.whole`:
  the kernel's by the run of its 64 grid points and the tiling of the result by their blocks
  (`Cert.KernelIdeal.Whole.run`), the reference's by reading its last stage at an index
  (`Cert.ReferenceIdeal.RefValue.ref_apply`). No step needs the inputs finite. The three frames are the
  programs' runs with the result dropped, and the idealization rewrote no operation.
-/
import proofs.«415042_j68616397521532_3_alg».proof.Defs
import proofs.«415042_j68616397521532_3_alg».proof.Proof.Gen.Kernel
import proofs.«415042_j68616397521532_3_alg».proof.Proof.Gen.Kernel.Skeleton
import proofs.«415042_j68616397521532_3_alg».proof.Proof.Gen.Kernel.Launch
import proofs.«415042_j68616397521532_3_alg».proof.Proof.Gen.Kernel.Points
import proofs.«415042_j68616397521532_3_alg».proof.Proof.Gen.Kernel.Frame
import proofs.«415042_j68616397521532_3_alg».proof.Proof.Gen.KernelIdeal
import proofs.«415042_j68616397521532_3_alg».proof.Proof.Gen.KernelIdeal.Skeleton
import proofs.«415042_j68616397521532_3_alg».proof.Proof.Gen.KernelIdeal.Launch
import proofs.«415042_j68616397521532_3_alg».proof.Proof.Gen.KernelIdeal.Points
import proofs.«415042_j68616397521532_3_alg».proof.Proof.Gen.KernelIdeal.Frame
import proofs.«415042_j68616397521532_3_alg».proof.Proof.Gen.ReferenceIdeal
import proofs.«415042_j68616397521532_3_alg».proof.Proof.Gen.Pre_finite_inputs
import proofs.«415042_j68616397521532_3_alg».proof.Proof.Gen.KernelIdeal.Value
import proofs.«415042_j68616397521532_3_alg».proof.Proof.Gen.ReferenceIdeal.Run
import proofs.«415042_j68616397521532_3_alg».proof.Proof.Gen.ReferenceIdeal.Read
import proofs.«415042_j68616397521532_3_alg».proof.Proof.KernelValue
import proofs.«415042_j68616397521532_3_alg».proof.Proof.RefValue
import Idealize.ShloMosaic.Adequacy
import Idealize.ShloMosaic.Init

noncomputable section

namespace Cert.Proof

open Idealize.ShloMosaic Idealize.ShloMosaic.TcCoe Idealize.SL.Sem ValueIdx

/-- Two rank-3 arrays that agree at every (a, b, c) are equal. -/
theorem ext_rank3 {α : Type} {n0 n1 n2 : Nat} (x y : (⟨3, ![n0, n1, n2]⟩ : Shape).Idx → α)
    (h : ∀ (a : Fin n0) (b : Fin n1) (c : Fin n2), x (ix3 a b c) = y (ix3 a b c)) : x = y := by
  funext j
  rw [eq_ix3 j]; exact h _ _ _

/-- The reference's last stage, as a whole array, is the whole-array result: entry by entry it is the
    specification's row result. -/
theorem ref_whole (D : FVec Ideal Cert.ReferenceIdeal.S16x4096x768 .f32) (Qa : FVec Ideal Cert.ReferenceIdeal.S16x128x768 .f32)
    (W : FVec Ideal Cert.ReferenceIdeal.S768x768 .f32) :
    Cert.ReferenceIdeal.Read.val_main_v16 (F := Ideal) D Qa W = Cert.CrossAttn.whole D Qa W :=
  ext_rank3 _ _ fun b d h => by
    rw [Cert.ReferenceIdeal.RefValue.ref_apply, Cert.CrossAttn.whole_apply]

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the arguments both programs end with the result array at the whole-array
    result of those arguments. -/
theorem algebraic : Cert.algebraic_KernelIdeal_ReferenceIdeal := by
  intro m ρ m' ρ' _ hagree
  refine ⟨fun c => Cert.CrossAttn.whole (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, ref_whole, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
